-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x1024 : Shape := ⟨4, ![32, 3, 512, 1024]⟩
abbrev S_ : Shape := ⟨0, ![]⟩

class Facts : Prop where
  bcast_S_S32x3x512x1024 : S_.BroadcastsInDim S32x3x512x1024 (![] : Fin 0 → Fin S32x3x512x1024.rank)
  reducesTo_S32x3x512x1024_S_d0_1_2_3 : S32x3x512x1024.ReducesTo [0, 1, 2, 3] S_
  h_S_ : 0 < S_.numel

variable [Facts]

def fn {F : FTy → Type} [FloatOps F] (main_arg0 : FVec F S32x3x512x1024 .f32) (main_arg1 : FVec F S32x3x512x1024 .f32) : IVec S_ 1 :=
  let main_v0 : FVec F S32x3x512x1024 .f32 := Host.absf main_arg0
  let main_cst : FVec F S_ .f32 := constant S_ .f32 0x7F800000#32
  let main_v1 : FVec F S32x3x512x1024 .f32 := broadcastInDim S32x3x512x1024 ![] bcast_S_S32x3x512x1024 main_cst
  let main_v2 : IVec S32x3x512x1024 1 := cmpf .olt main_v0 main_v1
  let main_c : IVec S_ 1 := constantI S_ 1 1#1
  let main_v3 : IVec S_ 1 := (fun x v => Host.reduce IntOp.andi x v reducesTo_S32x3x512x1024_S_d0_1_2_3 h_S_) main_v2 main_c
  let main_v4 : FVec F S32x3x512x1024 .f32 := Host.absf main_arg1
  let main_cst_0 : FVec F S_ .f32 := constant S_ .f32 0x7F800000#32
  let main_v5 : FVec F S32x3x512x1024 .f32 := broadcastInDim S32x3x512x1024 ![] bcast_S_S32x3x512x1024 main_cst_0
  let main_v6 : IVec S32x3x512x1024 1 := cmpf .olt main_v4 main_v5
  let main_c_1 : IVec S_ 1 := constantI S_ 1 1#1
  let main_v7 : IVec S_ 1 := (fun x v => Host.reduce IntOp.andi x v reducesTo_S32x3x512x1024_S_d0_1_2_3 h_S_) main_v6 main_c_1
  let main_v8 : IVec S_ 1 := andi main_v3 main_v7
  main_v8
-- ==== Kernel.lean ====
abbrev S32x3x512x1024 : Shape := ⟨4, ![32, 3, 512, 1024]⟩
abbrev S32x3x1024x3 : Shape := ⟨4, ![32, 3, 1024, 3]⟩
abbrev S4x3x512x128 : Shape := ⟨4, ![4, 3, 512, 128]⟩
abbrev S4x3x128x3 : Shape := ⟨4, ![4, 3, 128, 3]⟩
abbrev S4x3x128 : Shape := ⟨3, ![4, 3, 128]⟩
abbrev S4x3x128x1 : Shape := ⟨4, ![4, 3, 128, 1]⟩
abbrev S32x9216 : Shape := ⟨2, ![32, 9216]⟩

abbrev nBuf : Space → Nat
  | .hbm => 4
  | .vmem => 6
  | .smem => 0
  | _ => 0

abbrev bufTy : (tb : Table) → Fin (tcTables nBuf tb) → BufTy
  | .hbm, ⟨0, _⟩ => ⟨S32x3x512x1024, .f32⟩
  | .hbm, ⟨1, _⟩ => ⟨S32x3x512x1024, .f32⟩
  | .hbm, ⟨2, _⟩ => ⟨S32x3x1024x3, .f32⟩
  | .hbm, ⟨3, _⟩ => ⟨S32x9216, .f32⟩
  | .local _ .vmem, ⟨0, _⟩ => ⟨S4x3x512x128, .f32⟩
  | .local _ .vmem, ⟨1, _⟩ => ⟨S4x3x512x128, .f32⟩
  | .local _ .vmem, ⟨2, _⟩ => ⟨S4x3x512x128, .f32⟩
  | .local _ .vmem, ⟨3, _⟩ => ⟨S4x3x512x128, .f32⟩
  | .local _ .vmem, ⟨4, _⟩ => ⟨S4x3x128x3, .f32⟩
  | .local _ .vmem, ⟨5, _⟩ => ⟨S4x3x128x3, .f32⟩
  | _, _ => ⟨S32x3x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S4x3x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x3x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x3x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S4x3x512x128_S4x3x512x128_0_0_0_0 : ∀ a, (![0, 0, 0, 0] : Fin 4 → Nat) a + S4x3x512x128.size a ≤ S4x3x512x128.size a
  h_S4x3x512x128 : 0 < S4x3x512x128.numel
  reduces_S4x3x512x128_S4x3x128 : S4x3x512x128.Reduces [2] S4x3x128
  shapeCasts_S4x3x128_S4x3x128x1 : S4x3x128.ShapeCasts S4x3x128x1
  concatenates_S4x3x128x1_S4x3x128x1_S4x3x128x1_S4x3x128x3_d3 : Shape.Concatenates [S4x3x128x1, S4x3x128x1, S4x3x128x1] S4x3x128x3 3
  inb_S4x3x128x3_S4x3x128x3_0_0_0_0 : ∀ a, (![0, 0, 0, 0] : Fin 4 → Nat) a + S4x3x128x3.size a ≤ S4x3x128x3.size a
  h_S4x3x128x3 : 0 < S4x3x128x3.numel
  shapeCasts_S32x3x1024x3_S32x9216 : S32x3x1024x3.ShapeCasts S32x9216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x512x128.size a ≤ S32x3x512x1024.size a
  hwx0_0 : ∀ i : grid0.Coords, EltTy.bits .f32 = 32 ∨ (Rect.block (s := S32x3x512x1024) S4x3x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512x128.size a ≤ S32x3x512x1024.size a
  hwx0_1 : ∀ i : grid0.Coords, EltTy.bits .f32 = 32 ∨ (Rect.block (s := S32x3x512x1024) S4x3x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x128x3.size a ≤ S32x3x1024x3.size a
  hwx0_2 : ∀ i : grid0.Coords, EltTy.bits .f32 = 32 ∨ (Rect.block (s := S32x3x1024x3) S4x3x128x3.size (cc0_transform_2 i) (hinb0_2 i)).WholeWords (EltTy.packing .f32)

variable [Facts₀]

abbrev win0_0 : Pipeline.Window sig grid0 :=
  Pipeline.Window.ofSpec (Memref.whole main_arg0) S4x3x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x3x128x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x1024 : Shape := ⟨4, ![32, 3, 512, 1024]⟩
abbrev S32x3x1024x512 : Shape := ⟨4, ![32, 3, 1024, 512]⟩
abbrev S32x3072x512 : Shape := ⟨3, ![32, 3072, 512]⟩
abbrev S_ : Shape := ⟨0, ![]⟩
abbrev S32x3072 : Shape := ⟨2, ![32, 3072]⟩
abbrev S32x3072x1 : Shape := ⟨3, ![32, 3072, 1]⟩
abbrev S32x3072x3 : Shape := ⟨3, ![32, 3072, 3]⟩
abbrev S32x9216 : Shape := ⟨2, ![32, 9216]⟩

abbrev nBuf : Space → Nat
  | .hbm => 18
  | .vmem => 0
  | .smem => 0
  | _ => 0

abbrev bufTy : (tb : Table) → Fin (tcTables nBuf tb) → BufTy
  | .hbm, ⟨0, _⟩ => ⟨S32x3x512x1024, .f32⟩
  | .hbm, ⟨1, _⟩ => ⟨S32x3x512x1024, .f32⟩
  | .hbm, ⟨2, _⟩ => ⟨S32x3x1024x512, .f32⟩
  | .hbm, ⟨3, _⟩ => ⟨S32x3072x512, .f32⟩
  | .hbm, ⟨4, _⟩ => ⟨S32x3x1024x512, .f32⟩
  | .hbm, ⟨5, _⟩ => ⟨S32x3072x512, .f32⟩
  | .hbm, ⟨6, _⟩ => ⟨S32x3072x512, .f32⟩
  | .hbm, ⟨7, _⟩ => ⟨S32x3072x512, .f32⟩
  | .hbm, ⟨8, _⟩ => ⟨S_, .f32⟩
  | .hbm, ⟨9, _⟩ => ⟨S32x3072, .f32⟩
  | .hbm, ⟨10, _⟩ => ⟨S32x3072x512, .f32⟩
  | .hbm, ⟨11, _⟩ => ⟨S_, .f32⟩
  | .hbm, ⟨12, _⟩ => ⟨S32x3072, .f32⟩
  | .hbm, ⟨13, _⟩ => ⟨S32x3072x1, .f32⟩
  | .hbm, ⟨14, _⟩ => ⟨S32x3072x1, .f32⟩
  | .hbm, ⟨15, _⟩ => ⟨S32x3072x1, .f32⟩
  | .hbm, ⟨16, _⟩ => ⟨S32x3072x3, .f32⟩
  | .hbm, ⟨17, _⟩ => ⟨S32x9216, .f32⟩
  | _, _ => ⟨S32x3x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  transposes_S32x3x512x1024_S32x3x1024x512_0_1_3_2 : S32x3x512x1024.Transposes [0, 1, 3, 2] S32x3x1024x512
  shapeCasts_S32x3x1024x512_S32x3072x512 : S32x3x1024x512.ShapeCasts S32x3072x512
  reducesTo_S32x3072x512_S32x3072_d2 : S32x3072x512.ReducesTo [2] S32x3072
  h_S_ : 0 < S_.numel
  bcast_S32x3072_S32x3072x1_0_1 : S32x3072.BroadcastsInDim S32x3072x1 (![0, 1] : Fin 2 → Fin S32x3072x1.rank)
  concatenates_S32x3072x1_S32x3072x1_S32x3072x1_S32x3072x3_d2 : Shape.Concatenates [S32x3072x1, S32x3072x1, S32x3072x1] S32x3072x3 2
  shapeCasts_S32x3072x3_S32x9216 : S32x3072x3.ShapeCasts S32x9216

variable [Facts₀]

class Facts : Prop extends Facts₀ where

variable [Facts]
-- ==== Proof.Payload.lean ====
/-
  What the kernel body stores, read at an index.

  Of its two loaded blocks x0, x1 : [4, 3, 512, 128] the body stores one [4, 3, 128, 3] value: at (b, p, n, k) the sum
  over the 512 column positions c of |x0 − x1| at (b, p, c, n) for k = 0 and k = 2, and of (x0 − x1)·(x0 − x1) there
  for k = 1.  The three lane sums are given a trailing unit axis and joined along it.
-/
import proofs.«136129_j57389353009457_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- A sum over the column axis of a block, at (b, p, n): the sum over c of the block at (b, p, c, n). -/
theorem columnSum_apply (v : FVec Ideal S4x3x512x128 .f32) (h : S4x3x512x128.Reduces [2] S4x3x128) (hφ : FKind.Formats .f32)
    (hacc : (0x00000000#32 : BitVec (FTy.bits .f32)) = FKind.add.neutral .f32 hφ) (b : Fin 4) (p : Fin 3) (n : Fin 128) :
    multiReduction .add [2] S4x3x128 v 0x00000000#32 h hφ hacc (ix3 b p n) = ∑ c : Fin 512, v (ix4 b p c n) := by
  refine (Ideal.multiReduction_add_single v 0x00000000#32 h hφ hacc (ix3 b p n)).trans ?_
  refine Finset.sum_congr rfl fun c _ => congrArg v ?_
  funext a
  apply Fin.ext
  match a with
  | ⟨0, _⟩ => rfl
  | ⟨1, _⟩ => rfl
  | ⟨2, _⟩ => rfl
  | ⟨3, _⟩ => rfl

/-- Giving a [4, 3, 128] value a trailing unit axis moves no entry: (b, p, n, 0) reads (b, p, n). -/
theorem trailingUnit_apply (v : FVec Ideal S4x3x128 .f32) (h : S4x3x128.ShapeCasts S4x3x128x1) (b : Fin 4) (p : Fin 3) (n : Fin 128) (z : Fin 1) :
    shapeCast S4x3x128x1 v h (ix4 b p n z) = v (ix3 b p n) := by
  refine shapeCast_apply v h (ix4 b p n z) (ix3 b p n) ?_
  rewrite [Shape.rowMajor_val_three, Shape.rowMajor_val_four]
  have hz : z.val = 0 := by have := z.isLt; omega
  show (b.val * 3 + p.val) * 128 + n.val = ((b.val * 3 + p.val) * 128 + n.val) * 1 + z.val
  omega

/-- Three [4, 3, 128, 1] values joined along the last axis, at (b, p, n, k): the k-th of them at (b, p, n, 0). -/
theorem joinLast_apply (u0 u1 u2 : FVec Ideal S4x3x128x1 .f32)
    (h : Shape.Concatenates [S4x3x128x1, S4x3x128x1, S4x3x128x1] S4x3x128x3 3) (b : Fin 4) (p : Fin 3) (n : Fin 128) (k : Fin 3) :
    concatenate S4x3x128x3 3 [⟨S4x3x128x1, u0⟩, ⟨S4x3x128x1, u1⟩, ⟨S4x3x128x1, u2⟩] h (ix4 b p n k)
      = (match k with | ⟨0, _⟩ => u0 | ⟨1, _⟩ => u1 | ⟨_ + 2, _⟩ => u2) (ix4 b p n (0 : Fin 1)) := by
  have hi : ∀ (k : Fin 3) (a : Fin S4x3x128x1.rank), a.cast (rfl : S4x3x128x1.rank = S4x3x128x3.rank) ≠ (3 : Fin 4) →
      ((ix4 b p n (0 : Fin 1) : S4x3x128x1.Idx) a).val = ((ix4 b p n k : S4x3x128x3.Idx) (a.cast rfl)).val := fun k a =>
    match a with
    | ⟨0, _⟩ => fun _ => rfl
    | ⟨1, _⟩ => fun _ => rfl
    | ⟨2, _⟩ => fun _ => rfl
    | ⟨3, _⟩ => fun hne => absurd rfl hne
  match k with
  | ⟨0, _⟩ =>
    exact concatenate_apply_piece (t := S4x3x128x3) (3 : Fin 4) [⟨S4x3x128x1, u0⟩, ⟨S4x3x128x1, u1⟩, ⟨S4x3x128x1, u2⟩] h (ix4 b p n _) 0 (by simp) S4x3x128x1 u0 rfl rfl 0 rfl (ix4 b p n (0 : Fin 1)) (hi _) rfl
  | ⟨1, _⟩ =>
    exact concatenate_apply_piece (t := S4x3x128x3) (3 : Fin 4) [⟨S4x3x128x1, u0⟩, ⟨S4x3x128x1, u1⟩, ⟨S4x3x128x1, u2⟩] h (ix4 b p n _) 1 (by simp) S4x3x128x1 u1 rfl rfl 1 rfl (ix4 b p n (0 : Fin 1)) (hi _) rfl
  | ⟨2, _⟩ =>
    exact concatenate_apply_piece (t := S4x3x128x3) (3 : Fin 4) [⟨S4x3x128x1, u0⟩, ⟨S4x3x128x1, u1⟩, ⟨S4x3x128x1, u2⟩] h (ix4 b p n _) 2 (by simp) S4x3x128x1 u2 rfl rfl 2 rfl (ix4 b p n (0 : Fin 1)) (hi _) rfl

/-- THE STORED VALUE at (b, p, n, k): the squared L2 distance of the blocks' columns at (b, p, ·, n) for k = 1, their
    L1 distance for k = 0 and k = 2. -/
theorem stored_apply (x0 x1 : Vec Ideal S4x3x512x128 .f32) (b : Fin 4) (p : Fin 3) (n : Fin 128) (k : Fin 3) :
    k0_pay1 (F := Ideal) x0 x1 (ix4 b p n k)
      = if k.val = 1 then ∑ c : Fin 512, (x0 (ix4 b p c n) - x1 (ix4 b p c n)) * (x0 (ix4 b p c n) - x1 (ix4 b p c n))
        else ∑ c : Fin 512, FloatOps.absf (F := Ideal) (φ := .f32) (x0 (ix4 b p c n) - x1 (ix4 b p c n)) := by
  unfold k0_pay1
  refine (joinLast_apply _ _ _ _ b p n k).trans ?_
  match k with
  | ⟨0, _⟩ =>
    rw [if_neg (show ¬ (0 : Nat) = 1 by decide)]
    refine (trailingUnit_apply _ _ b p n 0).trans ?_
    exact columnSum_apply _ _ _ _ b p n
  | ⟨1, _⟩ =>
    rw [if_pos rfl]
    refine (trailingUnit_apply _ _ b p n 0).trans ?_
    exact columnSum_apply _ _ _ _ b p n
  | ⟨2, _⟩ =>
    rw [if_neg (show ¬ (2 : Nat) = 1 by decide)]
    refine (trailingUnit_apply _ _ b p n 0).trans ?_
    exact columnSum_apply _ _ _ _ b p n

end Cert.KernelIdeal.Body

end
-- ==== Proof.Spec.lean ====
/-
  The mathematics both programs compute.

  The arguments are two arrays x, y of shape [32, 3, 512, 1024].  For a batch b, a plane p and a lane n the two
  COLUMNS are the 512 entries x[b, p, ·, n] and y[b, p, ·, n].  Of their difference d = x − y two numbers are taken:
  the L1 distance Σ_c |d_c| and the squared L2 distance Σ_c d_c · d_c.  The result interleaves them, per column,
  as the triple (L1, L2², L1), and lays the triples of a batch end to end: flat position 3072·p + 3·n + k of row b
  holds entry k of column (b, p, n)'s triple.

  Everything here is over the extended reals, and uses no law beyond the definitions: both programs take the
  same differences, the same absolute values and products, and sums over the same 512 positions.
-/
import Idealize.ShloMosaic.PureOps.Ideal
import Idealize.ShloMosaic.PureOps.Ideal.Laws
import Idealize.ShloMosaic.Lib.ValueIdx
import Idealize.ShloMosaic.Lib.Pipeline.Value

noncomputable section

namespace Cert.ColumnDist

open Idealize.ShloMosaic Idealize.ShloMosaic.ValueIdx

/-- The arguments' shape: batch, plane, column position, lane. -/
abbrev SArg : Shape := ⟨4, ![32, 3, 512, 1024]⟩
/-- The triples, one per (batch, plane, lane). -/
abbrev STriple : Shape := ⟨4, ![32, 3, 1024, 3]⟩
/-- A batch's triples laid end to end. -/
abbrev SFlat : Shape := ⟨2, ![32, 9216]⟩

/-- The L1 distance of the two columns at (b, p, n): the sum over the 512 positions of |x − y|. -/
def colL1 (x y : FVec Ideal SArg .f32) (b : Fin 32) (p : Fin 3) (n : Fin 1024) : EReal :=
  ∑ c : Fin 512, FloatOps.absf (F := Ideal) (φ := .f32) (x (ix4 b p c n) - y (ix4 b p c n))

/-- The squared L2 distance of the two columns at (b, p, n): the sum over the 512 positions of (x − y)·(x − y). -/
def colL2sq (x y : FVec Ideal SArg .f32) (b : Fin 32) (p : Fin 3) (n : Fin 1024) : EReal :=
  ∑ c : Fin 512, (x (ix4 b p c n) - y (ix4 b p c n)) * (x (ix4 b p c n) - y (ix4 b p c n))

/-- Entry k of a column's triple (L1, L2², L1): the middle one is the squared L2 distance, the outer two the L1 distance. -/
def tripleAt (x y : FVec Ideal SArg .f32) (b : Fin 32) (p : Fin 3) (n : Fin 1024) (k : Fin 3) : EReal :=
  if k.val = 1 then colL2sq x y b p n else colL1 x y b p n

/-- A triple's entry depends on the four coordinates only through their values. -/
theorem tripleAt_congr (x y : FVec Ideal SArg .f32) {b b' : Fin 32} {p p' : Fin 3} {n n' : Fin 1024} {k k' : Fin 3}
    (hb : b.val = b'.val) (hp : p.val = p'.val) (hn : n.val = n'.val) (hk : k.val = k'.val) :
    tripleAt x y b p n k = tripleAt x y b' p' n' k' := by
  obtain rfl := Fin.ext hb
  obtain rfl := Fin.ext hp
  obtain rfl := Fin.ext hn
  obtain rfl := Fin.ext hk
  rfl

/-- The array of triples. -/
def triples (x y : FVec Ideal SArg .f32) : FVec Ideal STriple .f32 := fun i =>
  tripleAt x y ⟨(i 0).val, (i 0).isLt⟩ ⟨(i 1).val, (i 1).isLt⟩ ⟨(i 2).val, (i 2).isLt⟩ ⟨(i 3).val, (i 3).isLt⟩

theorem triples_ix4 (x y : FVec Ideal SArg .f32) (b : Fin 32) (p : Fin 3) (n : Fin 1024) (k : Fin 3) :
    triples x y (ix4 b p n k) = tripleAt x y b p n k := rfl

/-- Flat position f of a row names plane f / 3072, lane (f / 3) mod 1024 and triple entry f mod 3. -/
def unflat (j : SFlat.Idx) : STriple.Idx :=
  ix4 (⟨(j 0).val, (j 0).isLt⟩ : Fin 32)
    (⟨(j 1).val / 3072, by have h : (j 1).val < 9216 := (j 1).isLt; omega⟩ : Fin 3)
    (⟨(j 1).val / 3 % 1024, Nat.mod_lt _ (by decide)⟩ : Fin 1024)
    (⟨(j 1).val % 3, Nat.mod_lt _ (by decide)⟩ : Fin 3)

/-- The result both programs are proved to end at: each batch's triples laid end to end. -/
def flatTriples (x y : FVec Ideal SArg .f32) : FVec Ideal SFlat .f32 := fun j => triples x y (unflat j)

/-- Laying the array of triples out row-major as [32, 9216] gives the flat result: position 9216·b + f of the
    row-major order is ((3·b + p)·1024 + n)·3 + k for p = f / 3072, n = (f / 3) mod 1024, k = f mod 3. -/
theorem shapeCast_triples (x y : FVec Ideal SArg .f32) (h : STriple.ShapeCasts SFlat) :
    shapeCast SFlat (triples x y) h = flatTriples x y := by
  funext j
  refine shapeCast_apply (triples x y) h j (unflat j) ?_
  rewrite [Shape.rowMajor_val_four, Shape.rowMajor_val_two]
  have h0 : (j 0).val < 32 := (j 0).isLt
  have h1 : (j 1).val < 9216 := (j 1).isLt
  show ((((j 0).val * 3 + (j 1).val / 3072) * 1024 + (j 1).val / 3 % 1024) * 3 + (j 1).val % 3) = (j 0).val * 9216 + (j 1).val
  omega

end Cert.ColumnDist

end
-- ==== Proof.KernelColumns.lean ====
/-
  The kernel computes the flat array of triples.

  The grid has 8 × 8 points.  At point (i, j) the two input blocks are batches 4i … 4i+3, all planes, all 512 column
  positions and lanes 128j … 128j+127 of the arguments, and the output block is the same batches, all planes, the
  same lanes and all three triple entries.  So the stored value's entry (b, p, n, k), a distance of the blocks'
  columns at (b, p, ·, n), is a distance of the arguments' columns at (4i + b, p, ·, 128j + n): the block is the
  restriction of the array of triples.  The 64 blocks tile the output, so the output array ends at the array of
  triples, and the row-major reshape that follows the region lays each batch's triples end to end.
-/
import proofs.«136129_j57389353009457_1_alg».proof.Proof.Gen.KernelIdeal.Frame
import proofs.«136129_j57389353009457_1_alg».proof.Proof.Payload
import proofs.«136129_j57389353009457_1_alg».proof.Proof.Spec
import Idealize.ShloMosaic.Lib.Pipeline.Value
import Idealize.ShloMosaic.Lib.StableHlo.Run

set_option maxRecDepth 16384

noncomputable section

namespace Cert.KernelIdeal.Columns

open Idealize.ShloMosaic Idealize.ShloMosaic.TcCoe Idealize.ShloMosaic.ValueIdx Idealize.SL.Sem
open Cert.KernelIdeal Cert.KernelIdeal.Gen Cert.ColumnDist
open Idealize.ShloMosaic.Pipeline (Dat)

variable (m : (ℓ : Loc nD τ sig) → Buf (Elt Ideal) ℓ) (ρ : Dev nD → PrngReg)

theorem origin4 : (![0, 0, 0, 0] : Fin 4 → Nat) = fun _ => 0 := funext fun a => by fin_cases a <;> rfl

/-- The block index maps over the grid: the inputs' batch and lane block indices are the output's, every other block
    index is zero, and the output's two moving indices stay below 8. -/
theorem blockIndices : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = win0_2.index t (2 : Fin 4)
    ∧ win0_1.index t (0 : Fin 4) = win0_2.index t (0 : Fin 4) ∧ win0_1.index t (1 : Fin 4) = 0
    ∧ win0_1.index t (2 : Fin 4) = 0 ∧ win0_1.index t (3 : Fin 4) = win0_2.index t (2 : Fin 4)
    ∧ win0_2.index t (1 : Fin 4) = 0 ∧ win0_2.index t (3 : Fin 4) = 0
    ∧ win0_2.index t (0 : Fin 4) ≤ 7 ∧ win0_2.index t (2 : Fin 4) ≤ 7 :=
  (by decide +kernel : ∀ t : Fin grid0.N, _)

/-- Every pair of a batch block and a lane block is some point's. -/
theorem blockOnto : ∀ (q0 : Fin 8) (q2 : Fin 8), ∃ t : Fin cfg0.N, win0_2.index t = ![q0.val, 0, q2.val, 0] :=
  (by decide +kernel : ∀ (q0 : Fin 8) (q2 : Fin 8), ∃ t : Fin grid0.N, win0_2.index t = ![q0.val, 0, q2.val, 0])

/-- The stored value of two blocks that are the restrictions of X and Y to batches 4·i0 …, lanes 128·i2 … is the
    restriction of the array of triples of X and Y to those batches and lanes. -/
theorem stored_eq_triples (X Y : FVec Ideal SArg .f32) (x0 x1 : Vec Ideal S4x3x512x128 .f32) (i0 i2 : Nat) (hi0 : i0 ≤ 7) (hi2 : i2 ≤ 7)
    (h0 : ∀ (b : Fin 4) (p : Fin 3) (c : Fin 512) (n : Fin 128),
      x0 (ix4 b p c n) = X (ix4 (⟨i0 * 4 + b.val, by have := b.isLt; omega⟩ : Fin 32) p c (⟨i2 * 128 + n.val, by have := n.isLt; omega⟩ : Fin 1024)))
    (h1 : ∀ (b : Fin 4) (p : Fin 3) (c : Fin 512) (n : Fin 128),
      x1 (ix4 b p c n) = Y (ix4 (⟨i0 * 4 + b.val, by have := b.isLt; omega⟩ : Fin 32) p c (⟨i2 * 128 + n.val, by have := n.isLt; omega⟩ : Fin 1024)))
    (b : Fin 4) (p : Fin 3) (n : Fin 128) (k : Fin 3) :
    k0_pay1 (F := Ideal) x0 x1 (ix4 b p n k)
      = triples X Y (ix4 (⟨i0 * 4 + b.val, by have := b.isLt; omega⟩ : Fin 32) p (⟨i2 * 128 + n.val, by have := n.isLt; omega⟩ : Fin 1024) k) := by
  rw [Body.stored_apply, triples_ix4]
  unfold tripleAt colL2sq colL1
  by_cases hk : k.val = 1
  · rw [if_pos hk, if_pos hk]
    exact Finset.sum_congr rfl fun c _ => by rw [h0, h1]
  · rw [if_neg hk, if_neg hk]
    exact Finset.sum_congr rfl fun c _ => by rw [h0, h1]

/-- WHAT POINT t WRITES BACK is block t of the array of triples of the arguments as the region finds them. -/
theorem flushed_eq (c : Dev nD) (t : Fin cfg0.N) :
    (dats m 0 c).flushed 2 t = ((cfg0.win 2).blk t).view.read (Elt Ideal) (triples (V m c main_arg0) (V m c main_arg1)) := by
  show (cfg0.win 2).cut (grid0.coords t) ((dats m 0 c).after 2 t) = _
  rw [after0_2]
  unfold out0_2
  rw [View.canon_unit_zero origin4]
  simp only [View.ld_unit_zero (S := S4x3x512x128) origin4]
  obtain ⟨a0, a1, a2, a3, b0, b1, b2, b3, o1, o3, l0, l2⟩ := blockIndices t
  funext y
  obtain ⟨yb, yp, yn, yk, rfl⟩ : ∃ (yb : Fin 4) (yp : Fin 3) (yn : Fin 128) (yk : Fin 3), y = ix4 yb yp yn yk := ⟨y 0, y 1, y 2, y 3, eq_ix4 y⟩
  refine (stored_eq_triples (V m c main_arg0) (V m c main_arg1) (iblk m c 0 t) (iblk m c 1 t) (win0_2.index t (0 : Fin 4)) (win0_2.index t (2 : Fin 4)) l0 l2 ?_ ?_ yb yp yn yk).trans ?_
  · intro b p cc n
    show V m c main_arg0 (((cfg0.win 0).blk t).view.emb (ix4 b p cc n)) = V m c main_arg0 _
    refine congrArg (V m c main_arg0) ?_
    funext a; apply Fin.ext
    match a with
    | ⟨0, _⟩ => show win0_0.index t (0 : Fin 4) * 4 + 1 * b.val = win0_2.index t (0 : Fin 4) * 4 + b.val; omega
    | ⟨1, _⟩ => show win0_0.index t (1 : Fin 4) * 3 + 1 * p.val = p.val; omega
    | ⟨2, _⟩ => show win0_0.index t (2 : Fin 4) * 512 + 1 * cc.val = cc.val; omega
    | ⟨3, _⟩ => show win0_0.index t (3 : Fin 4) * 128 + 1 * n.val = win0_2.index t (2 : Fin 4) * 128 + n.val; omega
  · intro b p cc n
    show V m c main_arg1 (((cfg0.win 1).blk t).view.emb (ix4 b p cc n)) = V m c main_arg1 _
    refine congrArg (V m c main_arg1) ?_
    funext a; apply Fin.ext
    match a with
    | ⟨0, _⟩ => show win0_1.index t (0 : Fin 4) * 4 + 1 * b.val = win0_2.index t (0 : Fin 4) * 4 + b.val; omega
    | ⟨1, _⟩ => show win0_1.index t (1 : Fin 4) * 3 + 1 * p.val = p.val; omega
    | ⟨2, _⟩ => show win0_1.index t (2 : Fin 4) * 512 + 1 * cc.val = cc.val; omega
    | ⟨3, _⟩ => show win0_1.index t (3 : Fin 4) * 128 + 1 * n.val = win0_2.index t (2 : Fin 4) * 128 + n.val; omega
  · show triples (V m c main_arg0) (V m c main_arg1) _ = triples (V m c main_arg0) (V m c main_arg1) (((cfg0.win 2).blk t).view.emb (ix4 yb yp yn yk))
    refine congrArg (triples (V m c main_arg0) (V m c main_arg1)) ?_
    funext a; apply Fin.ext
    match a with
    | ⟨0, _⟩ => show win0_2.index t (0 : Fin 4) * 4 + yb.val = win0_2.index t (0 : Fin 4) * 4 + 1 * yb.val; omega
    | ⟨1, _⟩ => show yp.val = win0_2.index t (1 : Fin 4) * 3 + 1 * yp.val; omega
    | ⟨2, _⟩ => show win0_2.index t (2 : Fin 4) * 128 + yn.val = win0_2.index t (2 : Fin 4) * 128 + 1 * yn.val; omega
    | ⟨3, _⟩ => show yk.val = win0_2.index t (3 : Fin 4) * 3 + 1 * yk.val; omega

/-- An index of the output array is in point t's block iff each coordinate is in the block's range on its axis. -/
theorem mem_block (t : Fin cfg0.N) (i : S32x3x1024x3.Idx) :
    i ∈ ((cfg0.win 2).blk t).view.set ↔ ∀ a : Fin 4, win0_2.index t a * S4x3x128x3.size a ≤ (i a).val ∧ (i a).val < win0_2.index t a * S4x3x128x3.size a + S4x3x128x3.size a := by
  show i ∈ ((View.whole main_v0).slice (win0_2.rect t)).set ↔ _
  rw [View.set_slice_whole, Rect.mem_set_unit]
  exact Iff.rfl

/-- The blocks tile the output: (b, p, n, k) is in the block of the point with batch block b / 4 and lane block n / 128. -/
theorem covered (i : S32x3x1024x3.Idx) : ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 1024 := (i 2).isLt
  have hi3 : (i 3).val < 3 := (i 3).isLt
  obtain ⟨t, ht⟩ := blockOnto ⟨(i 0).val / 4, by omega⟩ ⟨(i 2).val / 128, by omega⟩
  have q0 : win0_2.index t (0 : Fin 4) = (i 0).val / 4 := congrFun ht 0
  have q1 : win0_2.index t (1 : Fin 4) = 0 := congrFun ht 1
  have q2 : win0_2.index t (2 : Fin 4) = (i 2).val / 128 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 4 ≤ (i 0).val ∧ (i 0).val < win0_2.index t (0 : Fin 4) * 4 + 4; omega
  | ⟨1, _⟩ => show win0_2.index t (1 : Fin 4) * 3 ≤ (i 1).val ∧ (i 1).val < win0_2.index t (1 : Fin 4) * 3 + 3; omega
  | ⟨2, _⟩ => show win0_2.index t (2 : Fin 4) * 128 ≤ (i 2).val ∧ (i 2).val < win0_2.index t (2 : Fin 4) * 128 + 128; omega
  | ⟨3, _⟩ => show win0_2.index t (3 : Fin 4) * 3 ≤ (i 3).val ∧ (i 3).val < win0_2.index t (3 : Fin 4) * 3 + 3; omega

/-- THE OUTPUT ARRAY after the region is the array of triples of the arguments. -/
theorem output_eq (c : Dev nD) :
    (dats m 0 c).arrAt 2 cfg0.N = triples (m ((c : Thread nD τ).loc main_arg0)) (m ((c : Thread nD τ).loc main_arg1)) :=
  (dats m 0 c).arrAt_eq_of_cover 2 (triples (V m c main_arg0) (V m c main_arg1)) (fun t _ => flushed_eq m c t) covered

end Cert.KernelIdeal.Columns

end
-- ==== Proof.KernelRun.lean ====
/-
  The kernel program's run, read.

  After the region the program reshapes the output array, the array of triples, row-major to [32, 9216]: each batch's
  triples end to end.  So every execution ends with the result at the flat array of triples of the arguments, and
  the arguments unchanged.
-/
import proofs.«136129_j57389353009457_1_alg».proof.Proof.KernelColumns

set_option maxRecDepth 16384

noncomputable section

namespace Cert.KernelIdeal.Columns

open Idealize.ShloMosaic Idealize.ShloMosaic.TcCoe Idealize.ShloMosaic.ValueIdx Idealize.SL.Sem Idealize.ShloMosaic.StableHlo
open Cert.KernelIdeal Cert.KernelIdeal.Gen Cert.ColumnDist
open Idealize.ShloMosaic.Pipeline (Dat)

variable (m : (ℓ : Loc nD τ sig) → Buf (Elt Ideal) ℓ) (ρ : Dev nD → PrngReg)

/-- At the region's exit the output buffer holds the array of triples of the arguments. -/
theorem exit_output (c : Dev nD) :
    Pipeline.withArrays (cfgs 0).spec c (V0 m c) (fun w => (dats m 0 c).arrAt w (cfgs 0).N) (Proc.devRef .tc main_v0)
      = triples (m ((c : Thread nD τ).loc main_arg0)) (m ((c : Thread nD τ).loc main_arg1)) :=
  (Pipeline.withArrays_arr spec0 launch0.win.arr_inj c _ _ 2).trans (output_eq m c)

/-- THE RESULT after the reshape that follows the region: the flat array of triples of the arguments. -/
theorem result_eq (c : Dev nD) :
    Pipeline.afterTail₀ cfgs (dats m) 0 (V0 m) [hostOps1] c main_v1
      = flatTriples (m ((c : Thread nD τ).loc main_arg0)) (m ((c : Thread nD τ).loc main_arg1)) := by
  unfold Pipeline.afterTail₀
  show StableHlo.after hostOps1 _ (Proc.devRef .tc main_v1) = _
  after_results
  rw [exit_output]
  exact shapeCast_triples _ _ _

/-- The result buffer is none of the pipeline's arrays and is not scoped: the frame run's post speaks of it. -/
theorem result_mem : main_v1 ∈ Pipeline.restRefs sig (cfgs 0).spec :=
  Pipeline.mem_restRefs_of main_v1 rfl (by decide)

/-- THE RUN: every weakly fair execution of the kernel program ends with the result at the flat array of triples of
    the arguments and the arguments unchanged. -/
theorem run : θ_run defs (onTc (τ := τ) (main (F := Ideal))) ⟨m, fun _ => 0, ρ⟩ fun r => ∀ c : Dev nD,
      r.2.mem ((c.tc : Thread nD τ).loc main_v1) = flatTriples (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 result_mem).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Columns

end
-- ==== Proof.RefColumns.lean ====
/-
  The reference computes the flat array of triples.

  The reference first moves the column axis last and merges plane and lane into one axis of 3072 pairs: pair
  q = 1024·p + n of batch r holds the column (r, p, ·, n).  Its two sums over the last axis, from the zero initial
  value, are therefore the L1 and the squared L2 distance of the columns at (r, q / 1024, q mod 1024); the three
  one-wide copies joined along a new last axis are the triple; and the final row-major reshape lays a batch's
  triples end to end.
-/
import proofs.«136129_j57389353009457_1_alg».proof.Proof.Gen.ReferenceIdeal.Read
import proofs.«136129_j57389353009457_1_alg».proof.Proof.Spec

noncomputable section

namespace Cert.ReferenceIdeal.Columns

open Idealize.ShloMosaic Idealize.ShloMosaic.ValueIdx Cert.ReferenceIdeal Cert.ReferenceIdeal.Read Cert.ColumnDist

/-- Plane of pair q. -/
abbrev planeOf (q : Fin 3072) : Fin 3 := ⟨q.val / 1024, by have := q.isLt; omega⟩
/-- Lane of pair q. -/
abbrev laneOf (q : Fin 3072) : Fin 1024 := ⟨q.val % 1024, Nat.mod_lt _ (by decide)⟩

/-- Entry c of pair (r, q), followed back through the merge of plane and lane and the exchange of the last two
    axes, is the argument's entry (r, q / 1024, c, q mod 1024): with N = (3072·r + q)·512 + c the row-major position,
    N / (3072·512) = r, (N / (1024·512)) mod 3 = q / 1024, (N / 512) mod 1024 = q mod 1024 and N mod 512 = c. -/
theorem pair_entry (r : Fin 32) (q : Fin 3072) (c : Fin 512) :
    idx_main_v0 (idx_main_v1 (ix3 r q c)) = ix4 r (planeOf q) c (laneOf q) := by
  have hr := r.isLt; have hq := q.isLt; have hc := c.isLt
  funext a
  apply Fin.ext
  match a with
  | ⟨0, _⟩ => show ((r.val * 3072 + q.val) * 512 + c.val) / 1572864 = r.val; omega
  | ⟨1, _⟩ => show ((r.val * 3072 + q.val) * 512 + c.val) / 524288 % 3 = q.val / 1024; omega
  | ⟨2, _⟩ => show ((r.val * 3072 + q.val) * 512 + c.val) % 512 = c.val; omega
  | ⟨3, _⟩ => show ((r.val * 3072 + q.val) * 512 + c.val) / 512 % 1024 = q.val % 1024; omega

/-- The difference the reference takes at entry c of pair (r, q). -/
theorem diff_apply (x0 x1 : FVec Ideal SArg .f32) (r : Fin 32) (q : Fin 3072) (c : Fin 512) :
    val_main_v4 (F := Ideal) x0 x1 (ix3 r q c)
      = x0 (ix4 r (planeOf q) c (laneOf q)) - x1 (ix4 r (planeOf q) c (laneOf q)) := by
  rw [val_main_v4_apply, val_main_v1_apply, val_main_v3_apply, val_main_v0_apply, val_main_v2_apply]
  show x0 (idx_main_v0 (idx_main_v1 (ix3 r q c))) - x1 (idx_main_v0 (idx_main_v1 (ix3 r q c))) = _
  rw [pair_entry]

/-- The reference's first sum at pair (r, q) is the L1 distance of the columns there. -/
theorem sumAbs_apply (x0 x1 : FVec Ideal SArg .f32) (r : Fin 32) (q : Fin 3072) :
    val_main_v6 (F := Ideal) x0 x1 (ix2 r q) = colL1 x0 x1 r (planeOf q) (laneOf q) := by
  rw [val_main_v6_apply, val_main_cst_apply]
  show Ideal.ofBits .f32 0x00000000#32 + _ = _
  rw [Ideal.ofBits_zero_f32, zero_add]
  unfold colL1
  refine Finset.sum_congr rfl fun c _ => ?_
  show val_main_v5 (F := Ideal) x0 x1 (ix3 r q c) = _
  rw [val_main_v5_apply, diff_apply]
  rfl

/-- The reference's second sum at pair (r, q) is the squared L2 distance of the columns there. -/
theorem sumSq_apply (x0 x1 : FVec Ideal SArg .f32) (r : Fin 32) (q : Fin 3072) :
    val_main_v8 (F := Ideal) x0 x1 (ix2 r q) = colL2sq x0 x1 r (planeOf q) (laneOf q) := by
  rw [val_main_v8_apply, val_main_cst_0_apply]
  show Ideal.ofBits .f32 0x00000000#32 + _ = _
  rw [Ideal.ofBits_zero_f32, zero_add]
  unfold colL2sq
  refine Finset.sum_congr rfl fun c _ => ?_
  show val_main_v7 (F := Ideal) x0 x1 (ix3 r q c) = _
  rw [val_main_v7_apply, diff_apply]
  rfl

/-- Three [32, 3072, 1] arrays joined along the last axis, at (r, q, k): the k-th of them at (r, q, 0). -/
theorem joinPairs_apply (u0 u1 u2 : FVec Ideal S32x3072x1 .f32)
    (h : Shape.Concatenates [S32x3072x1, S32x3072x1, S32x3072x1] S32x3072x3 2) (r : Fin 32) (q : Fin 3072) (k : Fin 3) :
    concatenate S32x3072x3 2 [⟨S32x3072x1, u0⟩, ⟨S32x3072x1, u1⟩, ⟨S32x3072x1, u2⟩] h (ix3 r q k)
      = (match k with | ⟨0, _⟩ => u0 | ⟨1, _⟩ => u1 | ⟨_ + 2, _⟩ => u2) (ix3 r q (0 : Fin 1)) := by
  have hi : ∀ (k : Fin 3) (a : Fin S32x3072x1.rank), a.cast (rfl : S32x3072x1.rank = S32x3072x3.rank) ≠ (2 : Fin 3) →
      ((ix3 r q (0 : Fin 1) : S32x3072x1.Idx) a).val = ((ix3 r q k : S32x3072x3.Idx) (a.cast rfl)).val := fun k a =>
    match a with
    | ⟨0, _⟩ => fun _ => rfl
    | ⟨1, _⟩ => fun _ => rfl
    | ⟨2, _⟩ => fun hne => absurd rfl hne
  match k with
  | ⟨0, _⟩ =>
    exact concatenate_apply_piece (t := S32x3072x3) (2 : Fin 3) [⟨S32x3072x1, u0⟩, ⟨S32x3072x1, u1⟩, ⟨S32x3072x1, u2⟩] h (ix3 r q _) 0 (by simp) S32x3072x1 u0 rfl rfl 0 rfl (ix3 r q (0 : Fin 1)) (hi _) rfl
  | ⟨1, _⟩ =>
    exact concatenate_apply_piece (t := S32x3072x3) (2 : Fin 3) [⟨S32x3072x1, u0⟩, ⟨S32x3072x1, u1⟩, ⟨S32x3072x1, u2⟩] h (ix3 r q _) 1 (by simp) S32x3072x1 u1 rfl rfl 1 rfl (ix3 r q (0 : Fin 1)) (hi _) rfl
  | ⟨2, _⟩ =>
    exact concatenate_apply_piece (t := S32x3072x3) (2 : Fin 3) [⟨S32x3072x1, u0⟩, ⟨S32x3072x1, u1⟩, ⟨S32x3072x1, u2⟩] h (ix3 r q _) 2 (by simp) S32x3072x1 u2 rfl rfl 2 rfl (ix3 r q (0 : Fin 1)) (hi _) rfl

/-- A one-wide copy of a [32, 3072] array reads it at (r, q). -/
theorem pairIndex (r : Fin 32) (q : Fin 3072) (z : Fin 1) : idx_main_v9 (ix3 r q z) = ix2 r q := by
  funext a
  match a with
  | ⟨0, _⟩ => rfl
  | ⟨1, _⟩ => rfl

/-- The joined array at (r, q, k) is entry k of the triple of the columns at (r, q / 1024, q mod 1024). -/
theorem joined_apply (x0 x1 : FVec Ideal SArg .f32) (r : Fin 32) (q : Fin 3072) (k : Fin 3) :
    val_main_v12 (F := Ideal) x0 x1 (ix3 r q k) = tripleAt x0 x1 r (planeOf q) (laneOf q) k := by
  unfold val_main_v12
  refine (joinPairs_apply _ _ _ _ r q k).trans ?_
  unfold tripleAt
  match k with
  | ⟨0, _⟩ =>
    rw [if_neg (show ¬ (0 : Nat) = 1 by decide)]
    show val_main_v9 (F := Ideal) x0 x1 (ix3 r q 0) = _
    rw [val_main_v9_apply, pairIndex, sumAbs_apply]
  | ⟨1, _⟩ =>
    rw [if_pos rfl]
    show val_main_v10 (F := Ideal) x0 x1 (ix3 r q 0) = _
    rw [val_main_v10_apply]
    show val_main_v8 (F := Ideal) x0 x1 (idx_main_v9 (ix3 r q 0)) = _
    rw [pairIndex, sumSq_apply]
  | ⟨2, _⟩ =>
    rw [if_neg (show ¬ (2 : Nat) = 1 by decide)]
    show val_main_v11 (F := Ideal) x0 x1 (ix3 r q 0) = _
    rw [val_main_v11_apply]
    show val_main_v6 (F := Ideal) x0 x1 (idx_main_v9 (ix3 r q 0)) = _
    rw [pairIndex, sumAbs_apply]

/-- THE REFERENCE'S RESULT is the flat array of triples: flat position f of row b is entry f mod 3 of pair f / 3,
    and pair f / 3 is plane f / 3072, lane (f / 3) mod 1024. -/
theorem result_eq (x0 x1 : FVec Ideal SArg .f32) : val_main_v13 (F := Ideal) x0 x1 = flatTriples x0 x1 := by
  funext j
  have h0 : (j 0).val < 32 := (j 0).isLt
  have h1 : (j 1).val < 9216 := (j 1).isLt
  have e : idx_main_v13 j = ix3 (⟨((j 0).val * 9216 + (j 1).val) / 9216, by omega⟩ : Fin 32)
      (⟨((j 0).val * 9216 + (j 1).val) / 3 % 3072, by omega⟩ : Fin 3072) (⟨((j 0).val * 9216 + (j 1).val) % 3, by omega⟩ : Fin 3) := by
    funext a
    match a with
    | ⟨0, _⟩ => rfl
    | ⟨1, _⟩ => rfl
    | ⟨2, _⟩ => rfl
  rw [val_main_v13_apply]
  refine (congrArg (val_main_v12 (F := Ideal) x0 x1) e).trans ((joined_apply x0 x1 _ _ _).trans ?_)
  unfold flatTriples unflat
  rw [triples_ix4]
  refine tripleAt_congr x0 x1 ?_ ?_ ?_ ?_
  · show ((j 0).val * 9216 + (j 1).val) / 9216 = (j 0).val; omega
  · show (((j 0).val * 9216 + (j 1).val) / 3 % 3072) / 1024 = (j 1).val / 3072; omega
  · show (((j 0).val * 9216 + (j 1).val) / 3 % 3072) % 1024 = (j 1).val / 3 % 1024; omega
  · show ((j 0).val * 9216 + (j 1).val) % 3 = (j 1).val % 3; omega

end Cert.ReferenceIdeal.Columns

end
-- ==== Proof.lean ====
/-
  Two programs that take, for every batch b, plane p and lane n, the L1 distance and the squared L2 distance of
  the 512-long columns x[b, p, ·, n] and y[b, p, ·, n] of two [32, 3, 512, 1024] arrays, and return per batch the triples
  (L1, L2², L1) laid end to end, [32, 9216].

  The kernel tiles batches by 4 and lanes by 128, keeps the whole column axis in each block, reduces over it in
  place and writes [4, 3, 128, 3] blocks of triples; a row-major reshape of the [32, 3, 1024, 3] output follows.  The
  reference moves the column axis last, merges plane and lane, reduces over the last axis, joins three one-wide
  copies and reshapes.  Over the extended reals the two are the same function of the arguments, entry by entry:
  both take the same differences, absolute values and squares and sum them over the same 512 positions, from a
  zero that adds nothing; only the order in which positions are named differs, so no property of the inputs is
  used.

  Spec.lean states the common function; Payload.lean and KernelColumns.lean read the kernel's stored value, its blocks
  and its output array; KernelRun.lean reads the reshape after the region and re-posts the kernel's run;
  RefColumns.lean reads the reference's result.  The word-level program's frame and the idealized program's are
  the generated frame runs; the reference's frame is its generated run with the result dropped; the idealization
  rewrote nothing, so that conjunct is trivial.
-/
import proofs.«136129_j57389353009457_1_alg».proof.Defs
import proofs.«136129_j57389353009457_1_alg».proof.Proof.Gen.Kernel
import proofs.«136129_j57389353009457_1_alg».proof.Proof.Gen.Kernel.Skeleton
import proofs.«136129_j57389353009457_1_alg».proof.Proof.Gen.Kernel.Launch
import proofs.«136129_j57389353009457_1_alg».proof.Proof.Gen.Kernel.Points
import proofs.«136129_j57389353009457_1_alg».proof.Proof.Gen.Kernel.Frame
import proofs.«136129_j57389353009457_1_alg».proof.Proof.Gen.KernelIdeal
import proofs.«136129_j57389353009457_1_alg».proof.Proof.Gen.KernelIdeal.Skeleton
import proofs.«136129_j57389353009457_1_alg».proof.Proof.Gen.KernelIdeal.Launch
import proofs.«136129_j57389353009457_1_alg».proof.Proof.Gen.KernelIdeal.Points
import proofs.«136129_j57389353009457_1_alg».proof.Proof.Gen.KernelIdeal.Frame
import proofs.«136129_j57389353009457_1_alg».proof.Proof.Gen.ReferenceIdeal
import proofs.«136129_j57389353009457_1_alg».proof.Proof.Gen.ReferenceIdeal.Run
import proofs.«136129_j57389353009457_1_alg».proof.Proof.Gen.ReferenceIdeal.Read
import proofs.«136129_j57389353009457_1_alg».proof.Proof.Gen.Pre_finite_inputs
import proofs.«136129_j57389353009457_1_alg».proof.Proof.KernelRun
import proofs.«136129_j57389353009457_1_alg».proof.Proof.RefColumns
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at the flat array of triples of
    those arguments. -/
theorem algebraic : Cert.algebraic_KernelIdeal_ReferenceIdeal := by
  intro m ρ m' ρ' _ hagree
  refine ⟨fun c => Cert.ColumnDist.flatTriples (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Columns.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  exact Cert.ReferenceIdeal.Columns.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
